-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S256x272 : Shape := ⟨2, ![256, 272]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S256x272 : S_.BroadcastsInDim S256x272 (![] : Fin 0 → Fin S256x272.rank)
  reducesTo_S256x272_S_d0_1 : S256x272.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x16 .f32) (main_arg3 : FVec F S256x272 .f32) (main_arg4 : FVec F S256 .f32) (main_arg5 : FVec F S128x256 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S256x272 .f32 := Host.absf main_arg3
  let main_cst_2 : FVec F S_ .f32 := constant S_ .f32 0x7F800000#32
  let main_v10 : FVec F S256x272 .f32 := broadcastInDim S256x272 ![] bcast_S_S256x272 main_cst_2
  let main_v11 : IVec S256x272 1 := cmpf .olt main_v9 main_v10
  let main_c_3 : IVec S_ 1 := constantI S_ 1 1#1
  let main_v12 : IVec S_ 1 := (fun x v => Host.reduce IntOp.andi x v reducesTo_S256x272_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S256x272 : Shape := ⟨2, ![256, 272]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S256x128 : Shape := ⟨2, ![256, 128]⟩
abbrev S256x16 : Shape := ⟨2, ![256, 16]⟩
abbrev S16x256 : Shape := ⟨2, ![16, 256]⟩
abbrev S1x256 : Shape := ⟨2, ![1, 256]⟩
abbrev S1x128 : Shape := ⟨2, ![1, 128]⟩
abbrev S6400x128 : Shape := ⟨2, ![6400, 128]⟩
abbrev S6400x16 : Shape := ⟨2, ![6400, 16]⟩
abbrev S6400x256 : Shape := ⟨2, ![6400, 256]⟩

abbrev nBuf : Space → Nat
  | .hbm => 39
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S256x272, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S256x128, .f32⟩
  | .hbm, ⟨30, _⟩ => ⟨S128x256, .f32⟩
  | .hbm, ⟨31, _⟩ => ⟨S256x128, .f32⟩
  | .hbm, ⟨32, _⟩ => ⟨S128x256, .f32⟩
  | .hbm, ⟨33, _⟩ => ⟨S256x16, .f32⟩
  | .hbm, ⟨34, _⟩ => ⟨S16x256, .f32⟩
  | .hbm, ⟨35, _⟩ => ⟨S256x128, .f32⟩
  | .hbm, ⟨36, _⟩ => ⟨S1x256, .f32⟩
  | .hbm, ⟨37, _⟩ => ⟨S1x128, .f32⟩
  | .hbm, ⟨38, _⟩ => ⟨S800000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S6400x16, .f32⟩
  | .local _ .vmem, ⟨5, _⟩ => ⟨S6400x16, .f32⟩
  | .local _ .vmem, ⟨6, _⟩ => ⟨S128x256, .f32⟩
  | .local _ .vmem, ⟨7, _⟩ => ⟨S128x256, .f32⟩
  | .local _ .vmem, ⟨8, _⟩ => ⟨S16x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S6400x128, .f32⟩
  | .local _ .vmem, ⟨13, _⟩ => ⟨S6400x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S256x272_S256x128_0_0 : S256x272.Slices ![0, 0] S256x128
  transposes_S256x128_S128x256_1_0 : S256x128.Transposes [1, 0] S128x256
  slices_S256x272_S256x128_0_128 : S256x272.Slices ![0, 128] S256x128
  slices_S256x272_S256x16_0_256 : S256x272.Slices ![0, 256] S256x16
  transposes_S256x16_S16x256_1_0 : S256x16.Transposes [1, 0] S16x256
  transposes_S128x256_S256x128_1_0 : S128x256.Transposes [1, 0] S256x128
  shapeCasts_S256_S1x256 : S256.ShapeCasts S1x256
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S6400x16_S6400x16_0_0 : ∀ a, (![0, 0] : Fin 2 → Nat) a + S6400x16.size a ≤ S6400x16.size a
  h_S6400x16 : 0 < S6400x16.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  gather_S50000x128_S800000x1_S800000x128_1_0_n_n_0_1_1128_wf : GatherDims.WF S50000x128 S800000x1 S800000x128 [1] [0] [] [0] [] 1 ![1, 128]
  dot_S6400x128_S128x256_S6400x256_1_0_0_1_n_n_wf : DotDims.WF S6400x128 S128x256 S6400x256 [1] [0] [0] [1] [] []
  dot_S6400x16_S16x256_S6400x256_1_0_0_1_n_n_wf : DotDims.WF S6400x16 S16x256 S6400x256 [1] [0] [0] [1] [] []
  dot_S6400x256_S256x128_S6400x128_1_0_0_1_n_n_wf : DotDims.WF S6400x256 S256x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x16.size a ≤ S800000x16.size a
  hwx0_2 : ∀ i : grid0.Coords, EltTy.bits .f32 = 32 ∨ (Rect.block (s := S800000x16) S6400x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x256.size a
  hwx0_5 : ∀ i : grid0.Coords, EltTy.bits .f32 = 32 ∨ (Rect.block (s := S16x256) S16x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x128.size a ≤ S800000x128.size a
  hwx0_9 : ∀ i : grid0.Coords, EltTy.bits .f32 = 32 ∨ (Rect.block (s := S800000x128) S6400x128.size (cc0_transform_9 i) (hinb0_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf
def dot_S6400x16_S16x256_S6400x256_1_0_0_1_n_n : DotDims S6400x16 S16x256 S6400x256 where
  lhsContracting := [1]
  rhsContracting := [0]
  lhsNonContracting := [0]
  rhsNonContracting := [1]
  lhsBatch := []
  rhsBatch := []
  wf := dot_S6400x16_S16x256_S6400x256_1_0_0_1_n_n_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf

abbrev win0_0 : Pipeline.Window sig grid0 :=
  Pipeline.Window.ofSpec (Memref.whole main_v10) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S16x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S6400x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S256x272 : Shape := ⟨2, ![256, 272]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x272 : Shape := ⟨2, ![800000, 272]⟩
abbrev S272x256 : Shape := ⟨2, ![272, 256]⟩
abbrev S800000x256 : Shape := ⟨2, ![800000, 256]⟩
abbrev S1x256 : Shape := ⟨2, ![1, 256]⟩
abbrev S256x128 : Shape := ⟨2, ![256, 128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S256x272, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x272, .f32⟩
  | .hbm, ⟨30, _⟩ => ⟨S272x256, .f32⟩
  | .hbm, ⟨31, _⟩ => ⟨S800000x256, .f32⟩
  | .hbm, ⟨32, _⟩ => ⟨S1x256, .f32⟩
  | .hbm, ⟨33, _⟩ => ⟨S800000x256, .f32⟩
  | .hbm, ⟨34, _⟩ => ⟨S800000x256, .f32⟩
  | .hbm, ⟨35, _⟩ => ⟨S_, .f32⟩
  | .hbm, ⟨36, _⟩ => ⟨S800000x256, .f32⟩
  | .hbm, ⟨37, _⟩ => ⟨S800000x256, .f32⟩
  | .hbm, ⟨38, _⟩ => ⟨S256x128, .f32⟩
  | .hbm, ⟨39, _⟩ => ⟨S800000x128, .f32⟩
  | .hbm, ⟨40, _⟩ => ⟨S1x128, .f32⟩
  | .hbm, ⟨41, _⟩ => ⟨S800000x128, .f32⟩
  | .hbm, ⟨42, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  concatenates_S800000x128_S800000x128_S800000x16_S800000x272_d1 : Shape.Concatenates [S800000x128, S800000x128, S800000x16] S800000x272 1
  transposes_S256x272_S272x256_1_0 : S256x272.Transposes [1, 0] S272x256
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  transposes_S128x256_S256x128_1_0 : S128x256.Transposes [1, 0] S256x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  gather_S50000x128_S800000x1_S800000x128_1_0_n_n_0_1_1128_wf : GatherDims.WF S50000x128 S800000x1 S800000x128 [1] [0] [] [0] [] 1 ![1, 128]
  dot_S800000x272_S272x256_S800000x256_1_0_0_1_n_n_wf : DotDims.WF S800000x272 S272x256 S800000x256 [1] [0] [0] [1] [] []
  dot_S800000x256_S256x128_S800000x128_1_0_0_1_n_n_wf : DotDims.WF S800000x256 S256x128 S800000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x272_S272x256_S800000x256_1_0_0_1_n_n : DotDims S800000x272 S272x256 S800000x256 where
  lhsContracting := [1]
  rhsContracting := [0]
  lhsNonContracting := [0]
  rhsNonContracting := [1]
  lhsBatch := []
  rhsBatch := []
  wf := dot_S800000x272_S272x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf

class Facts : Prop extends Facts₀ where

variable [Facts]
-- ==== Proof.Spec.lean ====
/-
  The edge network as ONE function of its operands, index by index, on the extended reals.

  For edge `e` the hidden unit `j` is
      h(e, j) = max( Σ_{k<128} xs(e,k)·W1(j,k) + Σ_{k<128} xd(e,k)·W1(j,128+k) + Σ_{k<16} ea(e,k)·W1(j,256+k) + b1(j), 0 )
  (`xs`, `xd`: the rows of the node table at the edge's two endpoints; `ea`: the edge's own features), and the result is
      out(e, n) = Σ_{j<256} h(e,j)·W2(n,j) + b2(n).
  The three partial sums are the three column bands of `W1` met by the three bands of the row `[xs(e,·), xd(e,·), ea(e,·)]`:
  one sum over all 272 columns regrouped (`sum_bands`), which needs only that addition on the extended reals is
  commutative and associative. No finiteness of any operand is used.
-/
import Idealize.ShloMosaic.PureOps.Ideal
import Idealize.ShloMosaic.Lib.ValueIdx

noncomputable section

namespace Cert.EdgeMlp

open Idealize.ShloMosaic Idealize.ShloMosaic.ValueIdx

abbrev EdgeRows : Shape := ⟨2, ![800000, 128]⟩
abbrev EdgeFeat : Shape := ⟨2, ![800000, 16]⟩
abbrev W1Shape : Shape := ⟨2, ![256, 272]⟩
abbrev B1Shape : Shape := ⟨1, ![256]⟩
abbrev W2Shape : Shape := ⟨2, ![128, 256]⟩
abbrev B2Shape : Shape := ⟨1, ![128]⟩

/-- Column `k` of the first band of `W1` (the source endpoint's features). -/
abbrev bandS (k : Fin 128) : Fin 272 := ⟨k.val, by have := k.isLt; omega⟩
/-- Column `k` of the second band (the destination endpoint's features). -/
abbrev bandD (k : Fin 128) : Fin 272 := ⟨128 + k.val, by have := k.isLt; omega⟩
/-- Column `k` of the third band (the edge's own features). -/
abbrev bandE (k : Fin 16) : Fin 272 := ⟨256 + k.val, by have := k.isLt; omega⟩

/-- A sum over the 272 columns is the sum of its three bands, 128 + 128 + 16 columns. -/
theorem sum_bands (f : Fin 272 → EReal) :
    ∑ k : Fin 272, f k = ((∑ k : Fin 128, f (bandS k)) + ∑ k : Fin 128, f (bandD k)) + ∑ k : Fin 16, f (bandE k) := by
  have h1 : ∑ k : Fin 272, f k = (∑ k : Fin 128, f (Fin.castAdd 144 k)) + ∑ k : Fin 144, f (Fin.natAdd 128 k) :=
    Fin.sum_univ_add (a := 128) (b := 144) f
  have h2 : ∑ k : Fin 144, f (Fin.natAdd 128 k)
      = (∑ k : Fin 128, f (Fin.natAdd 128 (Fin.castAdd 16 k))) + ∑ k : Fin 16, f (Fin.natAdd 128 (Fin.natAdd 128 k)) :=
    Fin.sum_univ_add (a := 128) (b := 16) (fun k => f (Fin.natAdd 128 k))
  rw [h1, h2, ← add_assoc]
  refine congrArg₂ (· + ·) (congrArg₂ (· + ·) rfl rfl) (Finset.sum_congr rfl fun k _ => congrArg f (Fin.ext ?_))
  show 128 + (128 + k.val) = 256 + k.val
  omega

/-- Hidden unit `j` of edge `e`: the three bands' products summed, the bias added, the negative part cut off. -/
def hidden (xs xd : FVec Ideal EdgeRows .f32) (ea : FVec Ideal EdgeFeat .f32) (W1 : FVec Ideal W1Shape .f32)
    (b1 : FVec Ideal B1Shape .f32) (e : Fin 800000) (j : Fin 256) : EReal :=
  max ((((∑ k : Fin 128, xs (ix2 e k) * W1 (ix2 j (bandS k))) + ∑ k : Fin 128, xd (ix2 e k) * W1 (ix2 j (bandD k)))
        + ∑ k : Fin 16, ea (ix2 e k) * W1 (ix2 j (bandE k))) + b1 (ix1 j)) 0

/-- The network's result: for edge `i 0` and output channel `i 1`, the hidden units against a row of `W2`, plus the bias. -/
def mlp (xs xd : FVec Ideal EdgeRows .f32) (ea : FVec Ideal EdgeFeat .f32) (W1 : FVec Ideal W1Shape .f32)
    (b1 : FVec Ideal B1Shape .f32) (W2 : FVec Ideal W2Shape .f32) (b2 : FVec Ideal B2Shape .f32) :
    FVec Ideal EdgeRows .f32 := fun i =>
  (∑ j : Fin 256, hidden xs xd ea W1 b1 (i 0) j * W2 (ix2 (i 1) j)) + b2 (ix1 (i 1))

end Cert.EdgeMlp

end
-- ==== Proof.BlockValue.lean ====
/-
  What the kernel body leaves in its output block, index by index, on the extended reals.

  The body holds 6400 edges at a time. With `xs`, `xd` (6400 × 128) the two endpoint blocks, `ea` (6400 × 16) the edge
  features, `wa`, `wb` (128 × 256) and `wc` (16 × 256) the three bands of `W1` transposed, `b1` (1 × 256), `w2` (256 × 128)
  and `b2` (1 × 128), entry `(p, n)` of the stored block is
      Σ_{j<256} max( Σ_k xs(p,k)·wa(k,j) + Σ_k xd(p,k)·wb(k,j) + Σ_k ea(p,k)·wc(k,j) + b1(0,j), 0 ) · w2(j,n) + b2(0,n).
  Each block product into a zero accumulator is the plain sum over its contracted axis; the narrowing of the operands to
  half precision is the identity on the extended reals; a shape cast to the same shape is the identity; the bias rows are
  broadcast down the 6400 rows.
-/
import proofs.«110097_j51196010168704_1_alg».proof.Proof.Gen.KernelIdeal.Value
import proofs.«110097_j51196010168704_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockValue

open Cert.KernelIdeal Cert.KernelIdeal.Gen
open Idealize.ShloMosaic Idealize.ShloMosaic.ValueIdx

/-! ## The three block products: which operand entries an output entry multiplies -/

theorem lhs_bandProd_0 (i : S6400x256.Idx) (q : dot_S6400x128_S128x256_S6400x256_1_0_0_1_n_n.contr.Idx) :
    (dot_S6400x128_S128x256_S6400x256_1_0_0_1_n_n.lhsIdx i q 0).val = (i 0).val := by
  unfold DotDims.lhsIdx
  rw [dif_neg (show ¬(0 : Fin S6400x128.rank) ∈ dot_S6400x128_S128x256_S6400x256_1_0_0_1_n_n.lhsBatch by decide), dif_pos (show (0 : Fin S6400x128.rank) ∈ dot_S6400x128_S128x256_S6400x256_1_0_0_1_n_n.lhsNonContracting by decide)]
  rfl
theorem lhs_bandProd_1 (i : S6400x256.Idx) (q : dot_S6400x128_S128x256_S6400x256_1_0_0_1_n_n.contr.Idx) :
    (dot_S6400x128_S128x256_S6400x256_1_0_0_1_n_n.lhsIdx i q 1).val = (q ⟨0, by decide⟩).val :=
  dot_S6400x128_S128x256_S6400x256_1_0_0_1_n_n.lhsIdx_val_of_single rfl i q
theorem rhs_bandProd_0 (i : S6400x256.Idx) (q : dot_S6400x128_S128x256_S6400x256_1_0_0_1_n_n.contr.Idx) :
    (dot_S6400x128_S128x256_S6400x256_1_0_0_1_n_n.rhsIdx i q 0).val = (q ⟨0, by decide⟩).val :=
  dot_S6400x128_S128x256_S6400x256_1_0_0_1_n_n.rhsIdx_val_of_single rfl i q
theorem rhs_bandProd_1 (i : S6400x256.Idx) (q : dot_S6400x128_S128x256_S6400x256_1_0_0_1_n_n.contr.Idx) :
    (dot_S6400x128_S128x256_S6400x256_1_0_0_1_n_n.rhsIdx i q 1).val = (i 1).val := by
  unfold DotDims.rhsIdx
  rw [dif_neg (show ¬(1 : Fin S128x256.rank) ∈ dot_S6400x128_S128x256_S6400x256_1_0_0_1_n_n.rhsBatch by decide), dif_pos (show (1 : Fin S128x256.rank) ∈ dot_S6400x128_S128x256_S6400x256_1_0_0_1_n_n.rhsNonContracting by decide)]
  rfl

theorem lhs_featProd_0 (i : S6400x256.Idx) (q : dot_S6400x16_S16x256_S6400x256_1_0_0_1_n_n.contr.Idx) :
    (dot_S6400x16_S16x256_S6400x256_1_0_0_1_n_n.lhsIdx i q 0).val = (i 0).val := by
  unfold DotDims.lhsIdx
  rw [dif_neg (show ¬(0 : Fin S6400x16.rank) ∈ dot_S6400x16_S16x256_S6400x256_1_0_0_1_n_n.lhsBatch by decide), dif_pos (show (0 : Fin S6400x16.rank) ∈ dot_S6400x16_S16x256_S6400x256_1_0_0_1_n_n.lhsNonContracting by decide)]
  rfl
theorem lhs_featProd_1 (i : S6400x256.Idx) (q : dot_S6400x16_S16x256_S6400x256_1_0_0_1_n_n.contr.Idx) :
    (dot_S6400x16_S16x256_S6400x256_1_0_0_1_n_n.lhsIdx i q 1).val = (q ⟨0, by decide⟩).val :=
  dot_S6400x16_S16x256_S6400x256_1_0_0_1_n_n.lhsIdx_val_of_single rfl i q
theorem rhs_featProd_0 (i : S6400x256.Idx) (q : dot_S6400x16_S16x256_S6400x256_1_0_0_1_n_n.contr.Idx) :
    (dot_S6400x16_S16x256_S6400x256_1_0_0_1_n_n.rhsIdx i q 0).val = (q ⟨0, by decide⟩).val :=
  dot_S6400x16_S16x256_S6400x256_1_0_0_1_n_n.rhsIdx_val_of_single rfl i q
theorem rhs_featProd_1 (i : S6400x256.Idx) (q : dot_S6400x16_S16x256_S6400x256_1_0_0_1_n_n.contr.Idx) :
    (dot_S6400x16_S16x256_S6400x256_1_0_0_1_n_n.rhsIdx i q 1).val = (i 1).val := by
  unfold DotDims.rhsIdx
  rw [dif_neg (show ¬(1 : Fin S16x256.rank) ∈ dot_S6400x16_S16x256_S6400x256_1_0_0_1_n_n.rhsBatch by decide), dif_pos (show (1 : Fin S16x256.rank) ∈ dot_S6400x16_S16x256_S6400x256_1_0_0_1_n_n.rhsNonContracting by decide)]
  rfl

theorem lhs_outProd_0 (i : S6400x128.Idx) (q : dot_S6400x256_S256x128_S6400x128_1_0_0_1_n_n.contr.Idx) :
    (dot_S6400x256_S256x128_S6400x128_1_0_0_1_n_n.lhsIdx i q 0).val = (i 0).val := by
  unfold DotDims.lhsIdx
  rw [dif_neg (show ¬(0 : Fin S6400x256.rank) ∈ dot_S6400x256_S256x128_S6400x128_1_0_0_1_n_n.lhsBatch by decide), dif_pos (show (0 : Fin S6400x256.rank) ∈ dot_S6400x256_S256x128_S6400x128_1_0_0_1_n_n.lhsNonContracting by decide)]
  rfl
theorem lhs_outProd_1 (i : S6400x128.Idx) (q : dot_S6400x256_S256x128_S6400x128_1_0_0_1_n_n.contr.Idx) :
    (dot_S6400x256_S256x128_S6400x128_1_0_0_1_n_n.lhsIdx i q 1).val = (q ⟨0, by decide⟩).val :=
  dot_S6400x256_S256x128_S6400x128_1_0_0_1_n_n.lhsIdx_val_of_single rfl i q
theorem rhs_outProd_0 (i : S6400x128.Idx) (q : dot_S6400x256_S256x128_S6400x128_1_0_0_1_n_n.contr.Idx) :
    (dot_S6400x256_S256x128_S6400x128_1_0_0_1_n_n.rhsIdx i q 0).val = (q ⟨0, by decide⟩).val :=
  dot_S6400x256_S256x128_S6400x128_1_0_0_1_n_n.rhsIdx_val_of_single rfl i q
theorem rhs_outProd_1 (i : S6400x128.Idx) (q : dot_S6400x256_S256x128_S6400x128_1_0_0_1_n_n.contr.Idx) :
    (dot_S6400x256_S256x128_S6400x128_1_0_0_1_n_n.rhsIdx i q 1).val = (i 1).val := by
  unfold DotDims.rhsIdx
  rw [dif_neg (show ¬(1 : Fin S256x128.rank) ∈ dot_S6400x256_S256x128_S6400x128_1_0_0_1_n_n.rhsBatch by decide), dif_pos (show (1 : Fin S256x128.rank) ∈ dot_S6400x256_S256x128_S6400x128_1_0_0_1_n_n.rhsNonContracting by decide)]
  rfl

/-- An endpoint block (6400 × 128) against a band of `W1` transposed (128 × 256), into zero: entry `(p, j)` is the sum over the 128 features. -/
theorem bandProd_apply (l : FVec Ideal S6400x128 .bf16) (r : FVec Ideal S128x256 .bf16) (p : Fin 6400) (j : Fin 256) :
    matmul dot_S6400x128_S128x256_S6400x256_1_0_0_1_n_n none l r (constant (F := Ideal) S6400x256 .f32 0x00000000#32) (ix2 p j)
      = ∑ k : Fin 128, l (ix2 p k) * r (ix2 k j) := by
  simp only [matmul]
  rw [Ideal.matmul_constant_zero_apply, ← Equiv.sum_comp (ValueIdx.contrEquiv1 dot_S6400x128_S128x256_S6400x256_1_0_0_1_n_n 128 rfl rfl).symm]
  refine Finset.sum_congr rfl fun k _ => ?_
  have hk := ValueIdx.contrEquiv1_symm_val dot_S6400x128_S128x256_S6400x256_1_0_0_1_n_n 128 rfl rfl k
  have el : dot_S6400x128_S128x256_S6400x256_1_0_0_1_n_n.lhsIdx (ix2 p j) ((ValueIdx.contrEquiv1 dot_S6400x128_S128x256_S6400x256_1_0_0_1_n_n 128 rfl rfl).symm k) = ix2 p k := funext fun a => Fin.ext (by
    match a with
    | ⟨0, _⟩ => exact lhs_bandProd_0 _ _
    | ⟨1, _⟩ => exact (lhs_bandProd_1 _ _).trans hk)
  have er : dot_S6400x128_S128x256_S6400x256_1_0_0_1_n_n.rhsIdx (ix2 p j) ((ValueIdx.contrEquiv1 dot_S6400x128_S128x256_S6400x256_1_0_0_1_n_n 128 rfl rfl).symm k) = ix2 k j := funext fun a => Fin.ext (by
    match a with
    | ⟨0, _⟩ => exact (rhs_bandProd_0 _ _).trans hk
    | ⟨1, _⟩ => exact rhs_bandProd_1 _ _)
  rw [el, er]

/-- The edge-feature block (6400 × 16) against the last band of `W1` transposed (16 × 256), into zero: entry `(p, j)` is the sum over the 16 features. -/
theorem featProd_apply (l : FVec Ideal S6400x16 .bf16) (r : FVec Ideal S16x256 .bf16) (p : Fin 6400) (j : Fin 256) :
    matmul dot_S6400x16_S16x256_S6400x256_1_0_0_1_n_n none l r (constant (F := Ideal) S6400x256 .f32 0x00000000#32) (ix2 p j)
      = ∑ k : Fin 16, l (ix2 p k) * r (ix2 k j) := by
  simp only [matmul]
  rw [Ideal.matmul_constant_zero_apply, ← Equiv.sum_comp (ValueIdx.contrEquiv1 dot_S6400x16_S16x256_S6400x256_1_0_0_1_n_n 16 rfl rfl).symm]
  refine Finset.sum_congr rfl fun k _ => ?_
  have hk := ValueIdx.contrEquiv1_symm_val dot_S6400x16_S16x256_S6400x256_1_0_0_1_n_n 16 rfl rfl k
  have el : dot_S6400x16_S16x256_S6400x256_1_0_0_1_n_n.lhsIdx (ix2 p j) ((ValueIdx.contrEquiv1 dot_S6400x16_S16x256_S6400x256_1_0_0_1_n_n 16 rfl rfl).symm k) = ix2 p k := funext fun a => Fin.ext (by
    match a with
    | ⟨0, _⟩ => exact lhs_featProd_0 _ _
    | ⟨1, _⟩ => exact (lhs_featProd_1 _ _).trans hk)
  have er : dot_S6400x16_S16x256_S6400x256_1_0_0_1_n_n.rhsIdx (ix2 p j) ((ValueIdx.contrEquiv1 dot_S6400x16_S16x256_S6400x256_1_0_0_1_n_n 16 rfl rfl).symm k) = ix2 k j := funext fun a => Fin.ext (by
    match a with
    | ⟨0, _⟩ => exact (rhs_featProd_0 _ _).trans hk
    | ⟨1, _⟩ => exact rhs_featProd_1 _ _)
  rw [el, er]

/-- The hidden block (6400 × 256) against `W2` transposed (256 × 128), into zero: entry `(p, n)` is the sum over the 256 hidden units. -/
theorem outProd_apply (l : FVec Ideal S6400x256 .bf16) (r : FVec Ideal S256x128 .bf16) (p : Fin 6400) (j : Fin 128) :
    matmul dot_S6400x256_S256x128_S6400x128_1_0_0_1_n_n none l r (constant (F := Ideal) S6400x128 .f32 0x00000000#32) (ix2 p j)
      = ∑ k : Fin 256, l (ix2 p k) * r (ix2 k j) := by
  simp only [matmul]
  rw [Ideal.matmul_constant_zero_apply, ← Equiv.sum_comp (ValueIdx.contrEquiv1 dot_S6400x256_S256x128_S6400x128_1_0_0_1_n_n 256 rfl rfl).symm]
  refine Finset.sum_congr rfl fun k _ => ?_
  have hk := ValueIdx.contrEquiv1_symm_val dot_S6400x256_S256x128_S6400x128_1_0_0_1_n_n 256 rfl rfl k
  have el : dot_S6400x256_S256x128_S6400x128_1_0_0_1_n_n.lhsIdx (ix2 p j) ((ValueIdx.contrEquiv1 dot_S6400x256_S256x128_S6400x128_1_0_0_1_n_n 256 rfl rfl).symm k) = ix2 p k := funext fun a => Fin.ext (by
    match a with
    | ⟨0, _⟩ => exact lhs_outProd_0 _ _
    | ⟨1, _⟩ => exact (lhs_outProd_1 _ _).trans hk)
  have er : dot_S6400x256_S256x128_S6400x128_1_0_0_1_n_n.rhsIdx (ix2 p j) ((ValueIdx.contrEquiv1 dot_S6400x256_S256x128_S6400x128_1_0_0_1_n_n 256 rfl rfl).symm k) = ix2 k j := funext fun a => Fin.ext (by
    match a with
    | ⟨0, _⟩ => exact (rhs_outProd_0 _ _).trans hk
    | ⟨1, _⟩ => exact rhs_outProd_1 _ _)
  rw [el, er]

/-! ## The hidden block and the stored block -/

/-- Every load and the store of the body start at the origin of their buffer. -/
theorem origin : (![0, 0] : Fin 2 → Nat) = fun _ => 0 := funext fun a => by fin_cases a <;> rfl

/-- Hidden unit `j` of row `p` of the block, from the loaded operands. -/
def blockHidden (xs xd : Vec Ideal S6400x128 .f32) (ea : Vec Ideal S6400x16 .f32) (wa wb : Vec Ideal S128x256 .f32)
    (wc : Vec Ideal S16x256 .f32) (b1 : Vec Ideal S1x256 .f32) (p : Fin 6400) (j : Fin 256) : EReal :=
  max ((((∑ k : Fin 128, xs (ix2 p k) * wa (ix2 k j)) + ∑ k : Fin 128, xd (ix2 p k) * wb (ix2 k j))
        + ∑ k : Fin 16, ea (ix2 p k) * wc (ix2 k j)) + b1 (ix2 (0 : Fin 1) j)) 0

/-- The second block product of the body at `(p, n)`: the hidden units of row `p` against column `n` of `w2`. -/
theorem pay2_apply (xs xd : Vec Ideal S6400x128 .f32) (ea : Vec Ideal S6400x16 .f32) (wa wb : Vec Ideal S128x256 .f32)
    (wc : Vec Ideal S16x256 .f32) (b1 : Vec Ideal S1x256 .f32) (w2 : Vec Ideal S256x128 .f32) (p : Fin 6400) (n : Fin 128) :
    k0_pay2 (F := Ideal) xs xd ea wa wb wc b1 w2 (ix2 p n)
      = ∑ j : Fin 256, blockHidden xs xd ea wa wb wc b1 p j * w2 (ix2 j n) := by
  unfold k0_pay2
  refine (outProd_apply _ _ p n).trans ?_
  refine Finset.sum_congr rfl fun j _ => ?_
  refine congrArg₂ (· * ·) ?_ (congrFun (shapeCast_self w2 _) (ix2 j n))
  unfold blockHidden
  refine congrArg₂ max (congrArg₂ (· + ·) (congrArg₂ (· + ·) (congrArg₂ (· + ·) ?_ ?_) ?_) ?_) Ideal.ofBits_zero_f32
  · refine (bandProd_apply _ _ p j).trans ?_
    exact Finset.sum_congr rfl fun k _ =>
      congrArg₂ (· * ·) (congrFun (shapeCast_self xs _) (ix2 p k)) (congrFun (shapeCast_self wa _) (ix2 k j))
  · refine (bandProd_apply _ _ p j).trans ?_
    exact Finset.sum_congr rfl fun k _ =>
      congrArg₂ (· * ·) (congrFun (shapeCast_self xd _) (ix2 p k)) (congrFun (shapeCast_self wb _) (ix2 k j))
  · refine (featProd_apply _ _ p j).trans ?_
    exact Finset.sum_congr rfl fun k _ =>
      congrArg₂ (· * ·) rfl (congrFun (shapeCast_self wc _) (ix2 k j))
  · exact (broadcastTo_1b_ab_apply _ _ p j).trans (congrFun (shapeCast_self b1 _) (ix2 (0 : Fin 1) j))

/-- What the body stores, at `(p, n)`: the second product plus the output bias of channel `n`. The loads read the whole
    staging buffers, so the stored block is this function of the nine input blocks themselves. -/
theorem out_apply (xs xd : Vec Ideal S6400x128 .f32) (ea : Vec Ideal S6400x16 .f32) (wa wb : Vec Ideal S128x256 .f32)
    (wc : Vec Ideal S16x256 .f32) (b1 : Vec Ideal S1x256 .f32) (w2 : Vec Ideal S256x128 .f32) (b2 : Vec Ideal S1x128 .f32)
    (p : Fin 6400) (n : Fin 128) :
    out0_9 (F := Ideal) xs xd ea wa wb wc b1 w2 b2 (ix2 p n)
      = (∑ j : Fin 256, blockHidden xs xd ea wa wb wc b1 p j * w2 (ix2 j n)) + b2 (ix2 (0 : Fin 1) n) := by
  unfold out0_9
  rw [Cert.KernelIdeal.Value.canon9_eq]
  simp only [View.ld_unit_zero (S := S6400x128) origin, View.ld_unit_zero (S := S6400x16) origin,
    View.ld_unit_zero (S := S128x256) origin, View.ld_unit_zero (S := S16x256) origin,
    View.ld_unit_zero (S := S1x256) origin, View.ld_unit_zero (S := S256x128) origin,
    View.ld_unit_zero (S := S1x128) origin]
  show k0_pay2 (F := Ideal) xs xd ea wa wb wc b1 w2 (Cert.KernelIdeal.Value.ix9_0 (ix2 p n))
      + b2 (Cert.KernelIdeal.Value.ix9_1 (ix2 p n)) = _
  rw [show Cert.KernelIdeal.Value.ix9_0 (ix2 p n) = ix2 p n from
        funext fun a => by match a with | ⟨0, _⟩ => rfl | ⟨1, _⟩ => rfl,
      show Cert.KernelIdeal.Value.ix9_1 (ix2 p n) = ix2 (0 : Fin 1) n from
        funext fun a => by match a with | ⟨0, _⟩ => rfl | ⟨1, _⟩ => rfl,
      pay2_apply]

/-! ## A block's entry is the network's entry -/

/-- If row `p` of the three moving blocks is row `e` of the whole arrays, the three weight blocks are the bands of `W1`
    transposed, `w2` is `W2` transposed and the bias rows are the bias vectors, then entry `(p, n)` of the stored block is
    entry `(e, n)` of `Cert.EdgeMlp.mlp`: the same sums, term by term. -/
theorem block_entry_eq_mlp
    (XS XD : FVec Ideal Cert.EdgeMlp.EdgeRows .f32) (EA : FVec Ideal Cert.EdgeMlp.EdgeFeat .f32)
    (W1 : FVec Ideal Cert.EdgeMlp.W1Shape .f32) (B1 : FVec Ideal Cert.EdgeMlp.B1Shape .f32)
    (W2 : FVec Ideal Cert.EdgeMlp.W2Shape .f32) (B2 : FVec Ideal Cert.EdgeMlp.B2Shape .f32)
    (xs xd : Vec Ideal S6400x128 .f32) (ea : Vec Ideal S6400x16 .f32) (wa wb : Vec Ideal S128x256 .f32)
    (wc : Vec Ideal S16x256 .f32) (b1 : Vec Ideal S1x256 .f32) (w2 : Vec Ideal S256x128 .f32) (b2 : Vec Ideal S1x128 .f32)
    (e : Fin 800000) (p : Fin 6400) (n : Fin 128)
    (hxs : ∀ k : Fin 128, xs (ix2 p k) = XS (ix2 e k)) (hxd : ∀ k : Fin 128, xd (ix2 p k) = XD (ix2 e k))
    (hea : ∀ k : Fin 16, ea (ix2 p k) = EA (ix2 e k))
    (hwa : ∀ (k : Fin 128) (j : Fin 256), wa (ix2 k j) = W1 (ix2 j (Cert.EdgeMlp.bandS k)))
    (hwb : ∀ (k : Fin 128) (j : Fin 256), wb (ix2 k j) = W1 (ix2 j (Cert.EdgeMlp.bandD k)))
    (hwc : ∀ (k : Fin 16) (j : Fin 256), wc (ix2 k j) = W1 (ix2 j (Cert.EdgeMlp.bandE k)))
    (hb1 : ∀ j : Fin 256, b1 (ix2 (0 : Fin 1) j) = B1 (ix1 j))
    (hw2 : ∀ j : Fin 256, w2 (ix2 j n) = W2 (ix2 n j))
    (hb2 : b2 (ix2 (0 : Fin 1) n) = B2 (ix1 n)) :
    (∑ j : Fin 256, blockHidden xs xd ea wa wb wc b1 p j * w2 (ix2 j n)) + b2 (ix2 (0 : Fin 1) n)
      = Cert.EdgeMlp.mlp XS XD EA W1 B1 W2 B2 (ix2 e n) := by
  unfold Cert.EdgeMlp.mlp
  show _ = (∑ j : Fin 256, Cert.EdgeMlp.hidden XS XD EA W1 B1 e j * W2 (ix2 n j)) + B2 (ix1 n)
  rw [hb2]
  refine congrArg (· + B2 (ix1 n)) (Finset.sum_congr rfl fun j _ => ?_)
  rw [hw2 j]
  refine congrArg (· * W2 (ix2 n j)) ?_
  unfold blockHidden Cert.EdgeMlp.hidden
  rw [hb1 j]
  simp only [hxs, hxd, hea, hwa, hwb, hwc]

end Cert.KernelIdeal.BlockValue

end
-- ==== Proof.ArrayValue.lean ====
/-
  The kernel's result array as one function of its argument arrays.

  The grid has 125 points; point `t` holds edges `6400·t … 6400·t + 6399`. Its three moving input blocks are those rows of
  the two gathered endpoint arrays and of the edge features; its six fixed input blocks are whole small arrays the host
  operations before the region prepared from the arguments: the three column bands of `W1`, each transposed; `W2`
  transposed; the two bias vectors as single rows. So what point `t` stores is rows `6400·t …` of `Cert.EdgeMlp.mlp` of
  the gathered rows and the arguments (`flushed_eq`), the 125 blocks tile the 800000 rows (`covered`), and the array
  ends holding `mlp` (`final`).
-/
import proofs.«110097_j51196010168704_1_alg».proof.Proof.BlockValue
import Idealize.ShloMosaic.Lib.StableHlo.Run
import Idealize.ShloMosaic.Lib.ValueLayout

noncomputable section

namespace Cert.KernelIdeal.ArrayValue

open Cert.KernelIdeal Cert.KernelIdeal.Gen Cert.KernelIdeal.BlockValue
open Idealize.ShloMosaic Idealize.ShloMosaic.TcCoe Idealize.SL.Sem Idealize.ShloMosaic.ValueIdx Idealize.ShloMosaic.StableHlo
open Idealize.ShloMosaic.Pipeline (Dat)
open Cert.EdgeMlp (bandS bandD bandE)

variable (m : (ℓ : Loc nD τ sig) → Buf (Elt Ideal) ℓ) (ρ : Dev nD → PrngReg)

/-! ## The whole arrays the region finds -/

/-- The node rows gathered at the edges' source endpoints (computed by the host before the region). -/
abbrev srcRows (c : Dev nD) : FVec Ideal S800000x128 .f32 := V m c main_v10
/-- The node rows gathered at the edges' destination endpoints. -/
abbrev dstRows (c : Dev nD) : FVec Ideal S800000x128 .f32 := V m c main_v17
abbrev feats (c : Dev nD) : FVec Ideal S800000x16 .f32 := (m ((c : Thread nD τ).loc main_arg2))
abbrev w1 (c : Dev nD) : FVec Ideal S256x272 .f32 := (m ((c : Thread nD τ).loc main_arg3))
abbrev b1 (c : Dev nD) : FVec Ideal S256 .f32 := (m ((c : Thread nD τ).loc main_arg4))
abbrev w2 (c : Dev nD) : FVec Ideal S128x256 .f32 := (m ((c : Thread nD τ).loc main_arg5))
abbrev b2 (c : Dev nD) : FVec Ideal S128 .f32 := (m ((c : Thread nD τ).loc main_arg6))

/-- What the result array ends holding. -/
abbrev result (c : Dev nD) : FVec Ideal S800000x128 .f32 :=
  Cert.EdgeMlp.mlp (srcRows m c) (dstRows m c) (feats m c) (w1 m c) (b1 m c) (w2 m c) (b2 m c)

/-! ## The six small operands, entry by entry -/

theorem bandS_operand (c : Dev nD) : (V m c main_v19 : S128x256.Idx → EReal)
    = transpose S128x256 [1, 0] (extractStridedSlice S256x128 ![0, 0] (w1 m c) slices_S256x272_S256x128_0_0) transposes_S256x128_S128x256_1_0 := by
  dsimp only [Gen.V, Gen.hostOps0]; after_results

theorem bandD_operand (c : Dev nD) : (V m c main_v21 : S128x256.Idx → EReal)
    = transpose S128x256 [1, 0] (extractStridedSlice S256x128 ![0, 128] (w1 m c) slices_S256x272_S256x128_0_128) transposes_S256x128_S128x256_1_0 := by
  dsimp only [Gen.V, Gen.hostOps0]; after_results

theorem bandE_operand (c : Dev nD) : (V m c main_v23 : S16x256.Idx → EReal)
    = transpose S16x256 [1, 0] (extractStridedSlice S256x16 ![0, 256] (w1 m c) slices_S256x272_S256x16_0_256) transposes_S256x16_S16x256_1_0 := by
  dsimp only [Gen.V, Gen.hostOps0]; after_results

theorem w2_operand (c : Dev nD) : (V m c main_v24 : S256x128.Idx → EReal)
    = transpose S256x128 [1, 0] (w2 m c) transposes_S128x256_S256x128_1_0 := by
  dsimp only [Gen.V, Gen.hostOps0]; after_results

theorem b1_operand (c : Dev nD) : (V m c main_v25 : S1x256.Idx → EReal) = shapeCast S1x256 (b1 m c) shapeCasts_S256_S1x256 := by
  dsimp only [Gen.V, Gen.hostOps0]; after_results; rfl

theorem b2_operand (c : Dev nD) : (V m c main_v26 : S1x128.Idx → EReal) = shapeCast S1x128 (b2 m c) shapeCasts_S128_S1x128 := by
  dsimp only [Gen.V, Gen.hostOps0]; after_results; rfl

/-- Entry `(k, j)` of the first weight operand is `W1(j, k)`. -/
theorem bandS_entry (c : Dev nD) (k : Fin 128) (j : Fin 256) :
    (V m c main_v19 : S128x256.Idx → EReal) (ix2 k j) = w1 m c (ix2 j (bandS k)) := by
  rw [bandS_operand]
  refine (transpose_ix2_apply _ _ k j).trans ?_
  exact slice2_axis1_apply 0 _ _ j k (bandS k) (Nat.zero_add _).symm

/-- Entry `(k, j)` of the second weight operand is `W1(j, 128 + k)`. -/
theorem bandD_entry (c : Dev nD) (k : Fin 128) (j : Fin 256) :
    (V m c main_v21 : S128x256.Idx → EReal) (ix2 k j) = w1 m c (ix2 j (bandD k)) := by
  rw [bandD_operand]
  refine (transpose_ix2_apply _ _ k j).trans ?_
  exact slice2_axis1_apply 128 _ _ j k (bandD k) rfl

/-- Entry `(k, j)` of the third weight operand is `W1(j, 256 + k)`. -/
theorem bandE_entry (c : Dev nD) (k : Fin 16) (j : Fin 256) :
    (V m c main_v23 : S16x256.Idx → EReal) (ix2 k j) = w1 m c (ix2 j (bandE k)) := by
  rw [bandE_operand]
  refine (transpose_ix2_apply _ _ k j).trans ?_
  exact slice2_axis1_apply 256 _ _ j k (bandE k) rfl

/-- Entry `(j, n)` of the second layer's operand is `W2(n, j)`. -/
theorem w2_entry (c : Dev nD) (j : Fin 256) (n : Fin 128) :
    (V m c main_v24 : S256x128.Idx → EReal) (ix2 j n) = w2 m c (ix2 n j) := by
  rw [w2_operand]
  exact transpose_ix2_apply _ _ j n

theorem b1_entry (c : Dev nD) (j : Fin 256) : (V m c main_v25 : S1x256.Idx → EReal) (ix2 (0 : Fin 1) j) = b1 m c (ix1 j) := by
  rw [b1_operand]
  exact shapeCast_a_1a_apply _ _ 0 j

theorem b2_entry (c : Dev nD) (n : Fin 128) : (V m c main_v26 : S1x128.Idx → EReal) (ix2 (0 : Fin 1) n) = b2 m c (ix1 n) := by
  rw [b2_operand]
  exact shapeCast_a_1a_apply _ _ 0 n

/-! ## The blocks at a point -/

/-- The index maps over the grid: the three moving inputs and the output take block `t` of the rows at point `t`; the
    six small operands are one whole block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

abbrev blkS (c : Dev nD) (t : Fin cfg0.N) : Vec Ideal S6400x128 .f32 := iblk m c 0 t
abbrev blkD (c : Dev nD) (t : Fin cfg0.N) : Vec Ideal S6400x128 .f32 := iblk m c 1 t
abbrev blkE (c : Dev nD) (t : Fin cfg0.N) : Vec Ideal S6400x16 .f32 := iblk m c 2 t
abbrev blkWa (c : Dev nD) (t : Fin cfg0.N) : Vec Ideal S128x256 .f32 := iblk m c 3 t
abbrev blkWb (c : Dev nD) (t : Fin cfg0.N) : Vec Ideal S128x256 .f32 := iblk m c 4 t
abbrev blkWc (c : Dev nD) (t : Fin cfg0.N) : Vec Ideal S16x256 .f32 := iblk m c 5 t
abbrev blkB1 (c : Dev nD) (t : Fin cfg0.N) : Vec Ideal S1x256 .f32 := iblk m c 6 t
abbrev blkW2 (c : Dev nD) (t : Fin cfg0.N) : Vec Ideal S256x128 .f32 := iblk m c 7 t
abbrev blkB2 (c : Dev nD) (t : Fin cfg0.N) : Vec Ideal S1x128 .f32 := iblk m c 8 t

/-- Row `p` of the source block at point `t` is row `6400·t + p` of the gathered source rows. -/
theorem blkS_entry (c : Dev nD) (t : Fin cfg0.N) (p : Fin 6400) (k : Fin 128) (e : Fin 800000) (he : e.val = t.val * 6400 + p.val) :
    blkS m c t (ix2 p k) = srcRows m c (ix2 e k) := by
  obtain ⟨h00, h01, -⟩ := index_facts t
  show V m c main_v10 (((cfg0.win 0).blk t).view.emb (ix2 p k)) = V m c main_v10 (ix2 e k)
  refine congrArg (V m c main_v10) (funext fun a => Fin.ext ?_)
  match a with
  | ⟨0, _⟩ => show win0_0.index t (0 : Fin 2) * 6400 + 1 * p.val = e.val; omega
  | ⟨1, _⟩ => show win0_0.index t (1 : Fin 2) * 128 + 1 * k.val = k.val; omega

theorem blkD_entry (c : Dev nD) (t : Fin cfg0.N) (p : Fin 6400) (k : Fin 128) (e : Fin 800000) (he : e.val = t.val * 6400 + p.val) :
    blkD m c t (ix2 p k) = dstRows m c (ix2 e k) := by
  obtain ⟨-, -, h10, h11, -⟩ := index_facts t
  show V m c main_v17 (((cfg0.win 1).blk t).view.emb (ix2 p k)) = V m c main_v17 (ix2 e k)
  refine congrArg (V m c main_v17) (funext fun a => Fin.ext ?_)
  match a with
  | ⟨0, _⟩ => show win0_1.index t (0 : Fin 2) * 6400 + 1 * p.val = e.val; omega
  | ⟨1, _⟩ => show win0_1.index t (1 : Fin 2) * 128 + 1 * k.val = k.val; omega

theorem blkE_entry (c : Dev nD) (t : Fin cfg0.N) (p : Fin 6400) (k : Fin 16) (e : Fin 800000) (he : e.val = t.val * 6400 + p.val) :
    blkE m c t (ix2 p k) = feats m c (ix2 e k) := by
  obtain ⟨-, -, -, -, h20, h21, -⟩ := index_facts t
  show V m c main_arg2 (((cfg0.win 2).blk t).view.emb (ix2 p k)) = feats m c (ix2 e k)
  rw [V_main_arg2]
  refine congrArg (feats m c) (funext fun a => Fin.ext ?_)
  match a with
  | ⟨0, _⟩ => show win0_2.index t (0 : Fin 2) * 6400 + 1 * p.val = e.val; omega
  | ⟨1, _⟩ => show win0_2.index t (1 : Fin 2) * 16 + 1 * k.val = k.val; omega

/-! ## The six small operands are their arrays whole, at every point -/

/-- The first weight block at any point: `W1(j, k)` at `(k, j)`. -/
theorem blkWa_entry (c : Dev nD) (t : Fin cfg0.N) (k : Fin 128) (j : Fin 256) :
    blkWa m c t (ix2 k j) = w1 m c (ix2 j (bandS k)) := by
  obtain ⟨h00, h01, h10, h11, h20, h21, h30, h31, h40, h41, h50, h51, h60, h61, h70, h71, h80, h81, h90, h91⟩ := index_facts t
  show V m c main_v19 (((cfg0.win 3).blk t).view.emb (ix2 k j)) = _
  refine (congrArg (V m c main_v19) (funext fun a => Fin.ext ?_) : V m c main_v19 _ = V m c main_v19 (ix2 k j)).trans (bandS_entry m c k j)
  match a with
  | ⟨0, _⟩ => show win0_3.index t (0 : Fin 2) * 128 + 1 * k.val = k.val; omega
  | ⟨1, _⟩ => show win0_3.index t (1 : Fin 2) * 256 + 1 * j.val = j.val; omega

/-- The second weight block at any point: `W1(j, 128 + k)` at `(k, j)`. -/
theorem blkWb_entry (c : Dev nD) (t : Fin cfg0.N) (k : Fin 128) (j : Fin 256) :
    blkWb m c t (ix2 k j) = w1 m c (ix2 j (bandD k)) := by
  obtain ⟨h00, h01, h10, h11, h20, h21, h30, h31, h40, h41, h50, h51, h60, h61, h70, h71, h80, h81, h90, h91⟩ := index_facts t
  show V m c main_v21 (((cfg0.win 4).blk t).view.emb (ix2 k j)) = _
  refine (congrArg (V m c main_v21) (funext fun a => Fin.ext ?_) : V m c main_v21 _ = V m c main_v21 (ix2 k j)).trans (bandD_entry m c k j)
  match a with
  | ⟨0, _⟩ => show win0_4.index t (0 : Fin 2) * 128 + 1 * k.val = k.val; omega
  | ⟨1, _⟩ => show win0_4.index t (1 : Fin 2) * 256 + 1 * j.val = j.val; omega

/-- The third weight block at any point: `W1(j, 256 + k)` at `(k, j)`. -/
theorem blkWc_entry (c : Dev nD) (t : Fin cfg0.N) (k : Fin 16) (j : Fin 256) :
    blkWc m c t (ix2 k j) = w1 m c (ix2 j (bandE k)) := by
  obtain ⟨h00, h01, h10, h11, h20, h21, h30, h31, h40, h41, h50, h51, h60, h61, h70, h71, h80, h81, h90, h91⟩ := index_facts t
  show V m c main_v23 (((cfg0.win 5).blk t).view.emb (ix2 k j)) = _
  refine (congrArg (V m c main_v23) (funext fun a => Fin.ext ?_) : V m c main_v23 _ = V m c main_v23 (ix2 k j)).trans (bandE_entry m c k j)
  match a with
  | ⟨0, _⟩ => show win0_5.index t (0 : Fin 2) * 16 + 1 * k.val = k.val; omega
  | ⟨1, _⟩ => show win0_5.index t (1 : Fin 2) * 256 + 1 * j.val = j.val; omega

/-- The first bias row at any point. -/
theorem blkB1_entry (c : Dev nD) (t : Fin cfg0.N) (u : Fin 1) (j : Fin 256) :
    blkB1 m c t (ix2 u j) = b1 m c (ix1 j) := by
  obtain ⟨h00, h01, h10, h11, h20, h21, h30, h31, h40, h41, h50, h51, h60, h61, h70, h71, h80, h81, h90, h91⟩ := index_facts t
  show V m c main_v25 (((cfg0.win 6).blk t).view.emb (ix2 u j)) = _
  refine (congrArg (V m c main_v25) (funext fun a => Fin.ext ?_) : V m c main_v25 _ = V m c main_v25 (ix2 u j)).trans ((by have hu : u = 0 := Fin.ext (by have := u.isLt; omega); subst hu; exact b1_entry m c j))
  match a with
  | ⟨0, _⟩ => show win0_6.index t (0 : Fin 2) * 1 + 1 * u.val = u.val; omega
  | ⟨1, _⟩ => show win0_6.index t (1 : Fin 2) * 256 + 1 * j.val = j.val; omega

/-- The second layer's weight block at any point: `W2(n, j)` at `(j, n)`. -/
theorem blkW2_entry (c : Dev nD) (t : Fin cfg0.N) (j : Fin 256) (n : Fin 128) :
    blkW2 m c t (ix2 j n) = w2 m c (ix2 n j) := by
  obtain ⟨h00, h01, h10, h11, h20, h21, h30, h31, h40, h41, h50, h51, h60, h61, h70, h71, h80, h81, h90, h91⟩ := index_facts t
  show V m c main_v24 (((cfg0.win 7).blk t).view.emb (ix2 j n)) = _
  refine (congrArg (V m c main_v24) (funext fun a => Fin.ext ?_) : V m c main_v24 _ = V m c main_v24 (ix2 j n)).trans (w2_entry m c j n)
  match a with
  | ⟨0, _⟩ => show win0_7.index t (0 : Fin 2) * 256 + 1 * j.val = j.val; omega
  | ⟨1, _⟩ => show win0_7.index t (1 : Fin 2) * 128 + 1 * n.val = n.val; omega

/-- The second bias row at any point. -/
theorem blkB2_entry (c : Dev nD) (t : Fin cfg0.N) (u : Fin 1) (n : Fin 128) :
    blkB2 m c t (ix2 u n) = b2 m c (ix1 n) := by
  obtain ⟨h00, h01, h10, h11, h20, h21, h30, h31, h40, h41, h50, h51, h60, h61, h70, h71, h80, h81, h90, h91⟩ := index_facts t
  show V m c main_v26 (((cfg0.win 8).blk t).view.emb (ix2 u n)) = _
  refine (congrArg (V m c main_v26) (funext fun a => Fin.ext ?_) : V m c main_v26 _ = V m c main_v26 (ix2 u n)).trans ((by have hu : u = 0 := Fin.ext (by have := u.isLt; omega); subst hu; exact b2_entry m c n))
  match a with
  | ⟨0, _⟩ => show win0_8.index t (0 : Fin 2) * 1 + 1 * u.val = u.val; omega
  | ⟨1, _⟩ => show win0_8.index t (1 : Fin 2) * 128 + 1 * n.val = n.val; omega

/-! ## What a point stores, the cover, the array -/

/-- WHAT POINT `t` WRITES BACK is block `t` — rows `6400·t …` — of `result`. -/
theorem flushed_eq (c : Dev nD) (t : Fin cfg0.N) :
    (dats m 0 c).flushed 9 t = ((cfg0.win 9).blk t).view.read (Elt Ideal) (result m c) := by
  rw [Cert.KernelIdeal.Value.flushed9]
  show (out0_9 (blkS m c t) (blkD m c t) (blkE m c t) (blkWa m c t) (blkWb m c t) (blkWc m c t) (blkB1 m c t) (blkW2 m c t) (blkB2 m c t) : S6400x128.Idx → EReal)
      = fun y : S6400x128.Idx => result m c (((cfg0.win 9).blk t).view.emb y)
  funext y
  obtain ⟨p, n, rfl⟩ : ∃ (p : Fin 6400) (n : Fin 128), y = ix2 p n := ⟨y 0, y 1, eq_ix2 y⟩
  obtain ⟨h00, h01, h10, h11, h20, h21, h30, h31, h40, h41, h50, h51, h60, h61, h70, h71, h80, h81, h90, h91⟩ := index_facts t
  have hN : grid0.N = 125 := N_0
  have ht : t.val < 125 := lt_of_lt_of_eq t.isLt hN
  have hp : p.val < 6400 := p.isLt
  have hemb : ((cfg0.win 9).blk t).view.emb (ix2 p n) = ix2 (⟨t.val * 6400 + p.val, by omega⟩ : Fin 800000) n :=
    funext fun a => Fin.ext (by
      match a with
      | ⟨0, _⟩ => show win0_9.index t (0 : Fin 2) * 6400 + 1 * p.val = t.val * 6400 + p.val; omega
      | ⟨1, _⟩ => show win0_9.index t (1 : Fin 2) * 128 + 1 * n.val = n.val; omega)
  show _ = result m c (((cfg0.win 9).blk t).view.emb (ix2 p n))
  rw [hemb]
  refine (out_apply (blkS m c t) (blkD m c t) (blkE m c t) (blkWa m c t) (blkWb m c t) (blkWc m c t) (blkB1 m c t) (blkW2 m c t) (blkB2 m c t) p n).trans ?_
  exact block_entry_eq_mlp (srcRows m c) (dstRows m c) (feats m c) (w1 m c) (b1 m c) (w2 m c) (b2 m c)
    (blkS m c t) (blkD m c t) (blkE m c t) (blkWa m c t) (blkWb m c t) (blkWc m c t) (blkB1 m c t) (blkW2 m c t) (blkB2 m c t)
    ⟨t.val * 6400 + p.val, by omega⟩ p n
    (fun k => blkS_entry m c t p k _ rfl) (fun k => blkD_entry m c t p k _ rfl) (fun k => blkE_entry m c t p k _ rfl)
    (fun k j => blkWa_entry m c t k j) (fun k j => blkWb_entry m c t k j) (fun k j => blkWc_entry m c t k j)
    (fun j => blkB1_entry m c t 0 j) (fun j => blkW2_entry m c t j n) (blkB2_entry m c t 0 n)

/-- An index of the array is in point `t`'s block iff each coordinate is in the block's range on its axis. -/
theorem mem_blk (t : Fin cfg0.N) (i : S800000x128.Idx) :
    i ∈ ((cfg0.win 9).blk t).view.set ↔ ∀ a : Fin 2, win0_9.index t a * S6400x128.size a ≤ (i a).val ∧ (i a).val < win0_9.index t a * S6400x128.size a + S6400x128.size a := by
  show i ∈ ((View.whole main_v27).slice (win0_9.rect t)).set ↔ _
  rw [View.set_slice_whole, Rect.mem_set_unit]
  exact Iff.rfl

/-- Every row of the array is in some point's block: row `r` in that of point `r / 6400`. -/
theorem covered (i : S800000x128.Idx) :
    ∃ t : Fin cfg0.N, (cfg0.win 9).flush t = true ∧ i ∈ ((cfg0.win 9).blk t).view.set := by
  have hN : grid0.N = 125 := N_0
  have hi0 : (i 0).val < 800000 := (i 0).isLt
  have hi1 : (i 1).val < 128 := (i 1).isLt
  let t : Fin cfg0.N := ⟨(i 0).val / 6400, lt_of_lt_of_eq (by omega : (i 0).val / 6400 < 125) hN.symm⟩
  obtain ⟨h00, h01, h10, h11, h20, h21, h30, h31, h40, h41, h50, h51, h60, h61, h70, h71, h80, h81, h90, h91⟩ := index_facts t
  have ht : t.val = (i 0).val / 6400 := rfl
  refine ⟨t, flush0_9 t, ?_⟩
  rw [mem_blk]
  intro a
  match a with
  | ⟨0, _⟩ => show win0_9.index t (0 : Fin 2) * 6400 ≤ (i 0).val ∧ (i 0).val < win0_9.index t (0 : Fin 2) * 6400 + 6400; omega
  | ⟨1, _⟩ => show win0_9.index t (1 : Fin 2) * 128 ≤ (i 1).val ∧ (i 1).val < win0_9.index t (1 : Fin 2) * 128 + 128; omega

/-- The result array after the run is `result`. -/
theorem final (c : Dev nD) : (dats m 0 c).arrAt 9 cfg0.N = result m c :=
  (dats m 0 c).arrAt_eq_of_cover 9 (result m c) (fun t _ => flushed_eq m c t) covered

/-- The kernel's run: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.ArrayValue

end
-- ==== Proof.RefSide.lean ====
/-
  The reference program computes `Cert.EdgeMlp.mlp`.

  The reference lays the two gathered endpoint rows and the edge's features side by side, one row of 272 entries per
  edge, and multiplies by the transpose of `W1`: entry `(e, j)` of that product is the sum over all 272 columns `k` of
  row(e, k) · W1(j, k). Columns 0–127 of the row are the source endpoint's, 128–255 the destination's, 256–271 the edge's
  own (`row_S`, `row_D`, `row_E`: the concatenation read at an index), so the sum splits into the three bands of
  `Cert.EdgeMlp.hidden` (`Cert.EdgeMlp.sum_bands`). The rest is read operation by operation: the bias row broadcast, the
  maximum with zero, the second product against the transpose of `W2`, and its bias. The two gathers stay whole on both
  sides: they are operands of `mlp`, never opened.
-/
import proofs.«110097_j51196010168704_1_alg».proof.Proof.Gen.ReferenceIdeal.Read
import proofs.«110097_j51196010168704_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.EdgeMlp

variable (x0 : FVec Ideal S50000x128 .f32) (x1 : IVec S2x800000 32) (x2 : FVec Ideal S800000x16 .f32)
  (x3 : FVec Ideal S256x272 .f32) (x4 : FVec Ideal S256 .f32) (x5 : FVec Ideal S128x256 .f32) (x6 : FVec Ideal S128 .f32)

/-! ## The joined row, band by band -/

/-- Columns 0–127 of the joined row are the source endpoint's gathered row. -/
theorem row_S (e : Fin 800000) (k : Fin 128) :
    val_main_v18 (F := Ideal) x0 x1 x2 (ix2 e (bandS k)) = val_main_v8 (F := Ideal) x0 x1 (ix2 e k) := by
  unfold val_main_v18
  refine concatenate_apply_piece (t := S800000x272) (a := (1 : Fin 2)) [⟨S800000x128, val_main_v8 (F := Ideal) x0 x1⟩, ⟨S800000x128, val_main_v17 (F := Ideal) x0 x1⟩, ⟨S800000x16, x2⟩]
    concatenates_S800000x128_S800000x128_S800000x16_S800000x272_d1 (ix2 e (bandS k)) 0 (by simp) S800000x128 _ rfl rfl 0 rfl (ix2 e k)
    (fun b hb => ?_) ?_
  · match b with
    | ⟨0, _⟩ => rfl
    | ⟨1, _⟩ => exact absurd rfl hb
  · show 0 + k.val = k.val
    omega

/-- Columns 128–255 are the destination endpoint's gathered row. -/
theorem row_D (e : Fin 800000) (k : Fin 128) :
    val_main_v18 (F := Ideal) x0 x1 x2 (ix2 e (bandD k)) = val_main_v17 (F := Ideal) x0 x1 (ix2 e k) := by
  unfold val_main_v18
  refine concatenate_apply_piece (t := S800000x272) (a := (1 : Fin 2)) [⟨S800000x128, val_main_v8 (F := Ideal) x0 x1⟩, ⟨S800000x128, val_main_v17 (F := Ideal) x0 x1⟩, ⟨S800000x16, x2⟩]
    concatenates_S800000x128_S800000x128_S800000x16_S800000x272_d1 (ix2 e (bandD k)) 1 (by simp) S800000x128 _ rfl rfl 128 rfl (ix2 e k)
    (fun b hb => ?_) ?_
  · match b with
    | ⟨0, _⟩ => rfl
    | ⟨1, _⟩ => exact absurd rfl hb
  · show 128 + k.val = 128 + k.val
    rfl

/-- Columns 256–271 are the edge's own features. -/
theorem row_E (e : Fin 800000) (k : Fin 16) :
    val_main_v18 (F := Ideal) x0 x1 x2 (ix2 e (bandE k)) = x2 (ix2 e k) := by
  unfold val_main_v18
  refine concatenate_apply_piece (t := S800000x272) (a := (1 : Fin 2)) [⟨S800000x128, val_main_v8 (F := Ideal) x0 x1⟩, ⟨S800000x128, val_main_v17 (F := Ideal) x0 x1⟩, ⟨S800000x16, x2⟩]
    concatenates_S800000x128_S800000x128_S800000x16_S800000x272_d1 (ix2 e (bandE k)) 2 (by simp) S800000x16 _ rfl rfl 256 rfl (ix2 e k)
    (fun b hb => ?_) ?_
  · match b with
    | ⟨0, _⟩ => rfl
    | ⟨1, _⟩ => exact absurd rfl hb
  · show 256 + k.val = 256 + k.val
    rfl

/-! ## The printed index maps, in coordinates -/

theorem lidx20 (e : Fin 800000) (j : Fin 256) (k : Fin 272) : lidx_main_v20 (ix2 e j) k = ix2 e k :=
  funext fun a => by match a with | ⟨0, _⟩ => rfl | ⟨1, _⟩ => rfl

theorem ridx20 (e : Fin 800000) (j : Fin 256) (k : Fin 272) : idx_main_v19 (ridx_main_v20 (ix2 e j) k) = ix2 j k :=
  funext fun a => by match a with | ⟨0, _⟩ => rfl | ⟨1, _⟩ => rfl

theorem bidx22 (e : Fin 800000) (j : Fin 256) : idx_main_v21 (idx_main_v22 (ix2 e j)) = ix1 j :=
  funext fun a => by match a with | ⟨0, _⟩ => rfl

theorem lidx26 (e : Fin 800000) (n : Fin 128) (j : Fin 256) : lidx_main_v26 (ix2 e n) j = ix2 e j :=
  funext fun a => by match a with | ⟨0, _⟩ => rfl | ⟨1, _⟩ => rfl

theorem ridx26 (e : Fin 800000) (n : Fin 128) (j : Fin 256) : idx_main_v25 (ridx_main_v26 (ix2 e n) j) = ix2 n j :=
  funext fun a => by match a with | ⟨0, _⟩ => rfl | ⟨1, _⟩ => rfl

theorem bidx28 (e : Fin 800000) (n : Fin 128) : idx_main_v27 (idx_main_v28 (ix2 e n)) = ix1 n :=
  funext fun a => by match a with | ⟨0, _⟩ => rfl

/-! ## The hidden layer and the result -/

/-- The reference's hidden layer at `(e, j)` is `hidden` of the two gathered rows, the edge features, `W1` and `b1`:
    the 272-term sum regrouped into its bands. -/
theorem hidden_eq (e : Fin 800000) (j : Fin 256) :
    val_main_v24 (F := Ideal) x0 x1 x2 x3 x4 (ix2 e j)
      = hidden (val_main_v8 (F := Ideal) x0 x1) (val_main_v17 (F := Ideal) x0 x1) x2 x3 x4 e j := by
  rw [val_main_v24_apply, val_main_v23_apply, val_main_v20_apply, val_main_v22_apply, val_main_v21_apply,
    val_main_call0_v0_apply, val_main_call0_cst_apply, bidx22]
  simp only [lidx20, val_main_v19_apply, ridx20]
  rw [sum_bands]
  simp only [row_S, row_D, row_E]
  unfold Cert.EdgeMlp.hidden
  simp only [Ideal.maximumf_def, Ideal.addf_def, Ideal.ofBits_def, Ideal.ofBits_zero_f32]

/-- The reference's result is `mlp` of the two gathered rows and the other arguments. -/
theorem result_eq :
    val_main_v29 (F := Ideal) x0 x1 x2 x3 x4 x5 x6
      = mlp (val_main_v8 (F := Ideal) x0 x1) (val_main_v17 (F := Ideal) x0 x1) x2 x3 x4 x5 x6 := by
  funext i
  obtain ⟨e, n, rfl⟩ : ∃ (e : Fin 800000) (n : Fin 128), i = ix2 e n := ⟨i 0, i 1, eq_ix2 i⟩
  rw [val_main_v29_apply, val_main_v26_apply, val_main_v28_apply, val_main_v27_apply, bidx28]
  simp only [lidx26, val_main_v25_apply, ridx26, hidden_eq]
  unfold mlp
  simp only [Ideal.addf_def]

end Cert.ReferenceIdeal.RefValue

end
-- ==== Proof.lean ====
/-
  The certificate of the edge network: a kernel that runs the two-layer network over the edges 6400 at a time, against
  the jnp reference.

  Both programs first gather, for every edge, the node rows at its two endpoints (`x[edge_index[0]]`, `x[edge_index[1]]`,
  a negative index wrapped once): the same host operations of the same arguments on both sides, so the two gathered
  arrays are the same arrays and are never opened. The reference joins the two gathered rows and the edge's features into
  one row of 272 entries and multiplies by `W1` transposed; the kernel multiplies the three parts by the three column
  bands of `W1` and adds the three products. On the extended reals these agree because a sum over 272 columns is the sum
  of its bands (addition is commutative and associative; no finiteness is needed). Bias, the maximum with zero, the second
  product with `W2` transposed and its bias are the same operations on both sides; the kernel's narrowing of operands to
  half precision is the identity on the extended reals. Both sides are shown to end at `Cert.EdgeMlp.mlp` of the gathered
  rows and the arguments.

  The three frames are the generated ones (the reference's is its generated run with the result dropped); the
  idealization rewrote nothing, so `preserves` is trivial.
-/
import proofs.«110097_j51196010168704_1_alg».proof.Defs
import proofs.«110097_j51196010168704_1_alg».proof.Proof.Gen.Kernel
import proofs.«110097_j51196010168704_1_alg».proof.Proof.Gen.Kernel.Skeleton
import proofs.«110097_j51196010168704_1_alg».proof.Proof.Gen.Kernel.Launch
import proofs.«110097_j51196010168704_1_alg».proof.Proof.Gen.Kernel.Points
import proofs.«110097_j51196010168704_1_alg».proof.Proof.Gen.Kernel.Frame
import proofs.«110097_j51196010168704_1_alg».proof.Proof.Gen.KernelIdeal
import proofs.«110097_j51196010168704_1_alg».proof.Proof.Gen.KernelIdeal.Skeleton
import proofs.«110097_j51196010168704_1_alg».proof.Proof.Gen.KernelIdeal.Launch
import proofs.«110097_j51196010168704_1_alg».proof.Proof.Gen.KernelIdeal.Points
import proofs.«110097_j51196010168704_1_alg».proof.Proof.Gen.KernelIdeal.Frame
import proofs.«110097_j51196010168704_1_alg».proof.Proof.Gen.ReferenceIdeal
import proofs.«110097_j51196010168704_1_alg».proof.Proof.Gen.KernelIdeal.Value
import proofs.«110097_j51196010168704_1_alg».proof.Proof.Gen.ReferenceIdeal.Run
import proofs.«110097_j51196010168704_1_alg».proof.Proof.Gen.ReferenceIdeal.Read
import proofs.«110097_j51196010168704_1_alg».proof.Proof.Gen.Pre_finite_inputs
import proofs.«110097_j51196010168704_1_alg».proof.Proof.ArrayValue
import proofs.«110097_j51196010168704_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.StableHlo

/-! ## The gathered rows are the same arrays on both sides -/

/-- The kernel's host operations gather the source rows exactly as the reference does: the same operations of the node
    table and the edge list. -/
theorem srcRows_eq (m : (ℓ : Loc Cert.KernelIdeal.nD Cert.KernelIdeal.τ Cert.KernelIdeal.sig) → Buf (Elt Ideal) ℓ) (c : Dev Cert.KernelIdeal.nD) :
    Cert.KernelIdeal.ArrayValue.srcRows m c = Cert.ReferenceIdeal.Read.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  show (Cert.KernelIdeal.Gen.V m c Cert.KernelIdeal.main_v10 : Cert.KernelIdeal.S800000x128.Idx → EReal) = _
  dsimp only [Cert.KernelIdeal.Gen.V, Cert.KernelIdeal.Gen.hostOps0]; after_results; rfl

set_option maxHeartbeats 1600000 in
/-- The same for the destination rows. -/
theorem dstRows_eq (m : (ℓ : Loc Cert.KernelIdeal.nD Cert.KernelIdeal.τ Cert.KernelIdeal.sig) → Buf (Elt Ideal) ℓ) (c : Dev Cert.KernelIdeal.nD) :
    Cert.KernelIdeal.ArrayValue.dstRows m c = Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  show (Cert.KernelIdeal.Gen.V m c Cert.KernelIdeal.main_v17 : Cert.KernelIdeal.S800000x128.Idx → EReal) = _
  dsimp only [Cert.KernelIdeal.Gen.V, Cert.KernelIdeal.Gen.hostOps0]; after_results; rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at `mlp` of the gathered rows and the arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v29_eq, Cert.ReferenceIdeal.RefValue.result_eq, a0, a1, a2, a3, a4, a5, a6,
    ← srcRows_eq m c, ← dstRows_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
